-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S16384x2048 .f32) (main_arg1 : FVec F S2048x6144 .f32) (main_arg2 : FVec F S6144 .f32) (main_arg3 : FVec F S2048x2048 .f32) (main_arg4 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x6144 .f32 := Host.absf main_arg1
  let main_cst_0 : FVec F S_ .f32 := constant S_ .f32 0x7F800000#32
  let main_v5 : FVec F S2048x6144 .f32 := broadcastInDim S2048x6144 ![] bcast_S_S2048x6144 main_cst_0
  let main_v6 : IVec S2048x6144 1 := cmpf .olt main_v4 main_v5
  let main_c_1 : IVec S_ 1 := constantI S_ 1 1#1
  let main_v7 : IVec S_ 1 := (fun x v => Host.reduce IntOp.andi x v reducesTo_S2048x6144_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S16384x2048 : Shape := ⟨2, ![16384, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 12
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x6144, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S2048x2048, .bf16⟩
  | .hbm, ⟨10, _⟩ => ⟨S1x2048, .f32⟩
  | .hbm, ⟨11, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2048x6144_S2048x2048_0_4096 : S2048x6144.Slices ![0, 4096] S2048x2048
  bitsLt_bf16_f32 : FTy.bits .bf16 < FTy.bits .f32
  slices_S6144_S2048_4096 : S6144.Slices ![4096] S2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S16384x2048.size a
  hwx0_5 : ∀ i : grid0.Coords, EltTy.bits .f32 = 32 ∨ (Rect.block (s := S16384x2048) S256x2048.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S16384x6144 : Shape := ⟨2, ![16384, 6144]⟩
abbrev S1x6144 : Shape := ⟨2, ![1, 6144]⟩
abbrev S16384x16x1x128 : Shape := ⟨4, ![16384, 16, 1, 128]⟩
abbrev S16384x16x1x1 : Shape := ⟨4, ![16384, 16, 1, 1]⟩
abbrev S_ : Shape := ⟨0, ![]⟩
abbrev S16384x16x1 : Shape := ⟨3, ![16384, 16, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6144, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S16384x6144, .f32⟩
  | .hbm, ⟨6, _⟩ => ⟨S1x6144, .f32⟩
  | .hbm, ⟨7, _⟩ => ⟨S16384x6144, .f32⟩
  | .hbm, ⟨8, _⟩ => ⟨S16384x6144, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x16x1x128, .f32⟩
  | .hbm, ⟨13, _⟩ => ⟨S16384x16x1x128, .f32⟩
  | .hbm, ⟨14, _⟩ => ⟨S16384x16x1x128, .f32⟩
  | .hbm, ⟨15, _⟩ => ⟨S16384x16x1x1, .f32⟩
  | .hbm, ⟨16, _⟩ => ⟨S_, .f32⟩
  | .hbm, ⟨17, _⟩ => ⟨S16384x16x1x1, .f32⟩
  | .hbm, ⟨18, _⟩ => ⟨S16384x16x1x1, .f32⟩
  | .hbm, ⟨19, _⟩ => ⟨S_, .f32⟩
  | .hbm, ⟨20, _⟩ => ⟨S16384x16x1, .f32⟩
  | .hbm, ⟨21, _⟩ => ⟨S_, .f32⟩
  | .hbm, ⟨22, _⟩ => ⟨S16384x16x1, .f32⟩
  | .hbm, ⟨23, _⟩ => ⟨S16384x16x1, .f32⟩
  | .hbm, ⟨24, _⟩ => ⟨S16384x16x1x1, .f32⟩
  | .hbm, ⟨25, _⟩ => ⟨S16384x16x1x1, .f32⟩
  | .hbm, ⟨26, _⟩ => ⟨S16384x16x1x1, .f32⟩
  | .hbm, ⟨27, _⟩ => ⟨S_, .f32⟩
  | .hbm, ⟨28, _⟩ => ⟨S16384x16x1, .f32⟩
  | .hbm, ⟨29, _⟩ => ⟨S16384x16x1x1, .f32⟩
  | .hbm, ⟨30, _⟩ => ⟨S16384x16x1x1, .f32⟩
  | .hbm, ⟨31, _⟩ => ⟨S16384x16x1x128, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  bcast_S1x6144_S16384x6144_0_1 : S1x6144.BroadcastsInDim S16384x6144 (![0, 1] : Fin 2 → Fin S16384x6144.rank)
  slices_S16384x6144_S16384x2048_0_0 : S16384x6144.Slices ![0, 0] S16384x2048
  slices_S16384x6144_S16384x2048_0_2048 : S16384x6144.Slices ![0, 2048] S16384x2048
  slices_S16384x6144_S16384x2048_0_4096 : S16384x6144.Slices ![0, 4096] S16384x2048
  shapeCasts_S16384x2048_S16384x16x1x128 : S16384x2048.ShapeCasts S16384x16x1x128
  bcast_S_S16384x16x1x1 : S_.BroadcastsInDim S16384x16x1x1 (![] : Fin 0 → Fin S16384x16x1x1.rank)
  reducesTo_S16384x16x1x1_S16384x16x1_d3 : S16384x16x1x1.ReducesTo [3] S16384x16x1
  h_S_ : 0 < S_.numel
  bcast_S_S16384x16x1 : S_.BroadcastsInDim S16384x16x1 (![] : Fin 0 → Fin S16384x16x1.rank)
  bcast_S16384x16x1_S16384x16x1x1_0_1_2 : S16384x16x1.BroadcastsInDim S16384x16x1x1 (![0, 1, 2] : Fin 3 → Fin S16384x16x1x1.rank)
  shapeCasts_S16384x16x1x128_S16384x2048 : S16384x16x1x128.ShapeCasts S16384x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x6144_S16384x6144_1_0_0_1_n_n_wf : DotDims.WF S16384x2048 S2048x6144 S16384x6144 [1] [0] [0] [1] [] []
  dot_S16384x16x1x128_S16384x16x1x128_S16384x16x1x1_3_3_2_2_01_01_wf : DotDims.WF S16384x16x1x128 S16384x16x1x128 S16384x16x1x1 [3] [3] [2] [2] [0, 1] [0, 1]
  dot_S16384x16x1x1_S16384x16x1x128_S16384x16x1x128_3_2_2_3_01_01_wf : DotDims.WF S16384x16x1x1 S16384x16x1x128 S16384x16x1x128 [3] [2] [2] [3] [0, 1] [0, 1]
  dot_S16384x2048_S2048x2048_S16384x2048_1_0_0_1_n_n_wf : DotDims.WF S16384x2048 S2048x2048 S16384x2048 [1] [0] [0] [1] [] []

variable [Facts₀]

def dot_S16384x2048_S2048x6144_S16384x6144_1_0_0_1_n_n : DotDims S16384x2048 S2048x6144 S16384x6144 where
  lhsContracting := [1]
  rhsContracting := [0]
  lhsNonContracting := [0]
  rhsNonContracting := [1]
  lhsBatch := []
  rhsBatch := []
  wf := dot_S16384x2048_S2048x6144_S16384x6144_1_0_0_1_n_n_wf
def dot_S16384x16x1x128_S16384x16x1x128_S16384x16x1x1_3_3_2_2_01_01 : DotDims S16384x16x1x128 S16384x16x1x128 S16384x16x1x1 where
  lhsContracting := [3]
  rhsContracting := [3]
  lhsNonContracting := [2]
  rhsNonContracting := [2]
  lhsBatch := [0, 1]
  rhsBatch := [0, 1]
  wf := dot_S16384x16x1x128_S16384x16x1x128_S16384x16x1x1_3_3_2_2_01_01_wf
def dot_S16384x16x1x1_S16384x16x1x128_S16384x16x1x128_3_2_2_3_01_01 : DotDims S16384x16x1x1 S16384x16x1x128 S16384x16x1x128 where
  lhsContracting := [3]
  rhsContracting := [2]
  lhsNonContracting := [2]
  rhsNonContracting := [3]
  lhsBatch := [0, 1]
  rhsBatch := [0, 1]
  wf := dot_S16384x16x1x1_S16384x16x1x128_S16384x16x1x128_3_2_2_3_01_01_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Spec.lean ====
/-
  The function both programs compute, over the extended reals.

  With one key position per head the attention weights are a softmax over a single score, which is 1 whenever the
  score is a real number; the attention output is then the value projection itself, and the whole layer is

      out[r, n] = (∑ j, v[r, j] · w_proj[j, n]) + b_proj[n],      v[r, j] = (∑ k, x[r, k] · w_qkv[k, 4096 + j]) + b_qkv[4096 + j],

  two matrix products with their bias rows; columns 4096 … 6143 of the fused projection are its "value" third.
-/
import Idealize.ShloMosaic.PureOps.Ideal
import Idealize.ShloMosaic.Lib.ValueIdx

noncomputable section

namespace Cert.Hand

open Idealize.ShloMosaic Idealize.ShloMosaic.ValueIdx

/-- Every entry of an array of extended reals is a real number. -/
def AllReal {ι : Type} (f : ι → EReal) : Prop := ∀ i, ∃ r : ℝ, f i = (r : EReal)

/-- Column `4096 + j` of the fused projection: column `j` of its value third. -/
abbrev vcol (j : Fin 2048) : Fin 6144 := ⟨4096 + j.val, by have := j.isLt; omega⟩

/-- Entry `(r, j)` of the value projection `x · W_v + b_v`. -/
def valueProj (x : (⟨2, ![16384, 2048]⟩ : Shape).Idx → EReal) (w : (⟨2, ![2048, 6144]⟩ : Shape).Idx → EReal)
    (b : (⟨1, ![6144]⟩ : Shape).Idx → EReal) (r : Fin 16384) (j : Fin 2048) : EReal :=
  (∑ k : Fin 2048, x (ix2 r k) * w (ix2 k (vcol j))) + b (ix1 (vcol j))

/-- The layer's output: the value projection through the output projection, `(x · W_v + b_v) · W_proj + b_proj`. -/
def layerOut (x : (⟨2, ![16384, 2048]⟩ : Shape).Idx → EReal) (w : (⟨2, ![2048, 6144]⟩ : Shape).Idx → EReal)
    (b : (⟨1, ![6144]⟩ : Shape).Idx → EReal) (wp : (⟨2, ![2048, 2048]⟩ : Shape).Idx → EReal)
    (bp : (⟨1, ![2048]⟩ : Shape).Idx → EReal) : (⟨2, ![16384, 2048]⟩ : Shape).Idx → EReal := fun i =>
  (∑ j : Fin 2048, valueProj x w b (i 0) j * wp (ix2 j (i 1))) + bp (ix1 (i 1))

end Cert.Hand

end
-- ==== Proof.FiniteInputs.lean ====
/-
  The printed precondition, read back.

  The precondition asks, of each of the five float arguments, that every entry have absolute value below +∞, and
  joins the five answers by "and". Over the extended reals the absolute value of x is max x (-x), and it is below
  +∞ exactly when x is neither +∞ nor -∞: a real number. So a precondition that holds says that every entry of
  every argument is a real number.
-/
import proofs.«112032_j79568564126257_1_alg».proof.Pre_finite_inputs
import proofs.«112032_j79568564126257_1_alg».proof.Proof.Spec
import Idealize.ShloMosaic.PureOps.Ideal
import Idealize.ShloMosaic.Lib.ReduceAll
import Idealize.ShloMosaic.Lib.ValueIdx

noncomputable section

namespace Cert.Hand

open Idealize.ShloMosaic Idealize.ShloMosaic.ValueIdx

/-- The bit pattern of +∞ denotes the top of the extended reals. -/
theorem inf_word : Ideal.ofBits .f32 0x7F800000#32 = (⊤ : EReal) := by
  simp [Ideal.ofBits, Ideal.ieee]

/-- The element step: an extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

/-- The scalar shape has one index. -/
instance : Subsingleton Cert.Pre_finite_inputs.S_.Idx := ⟨fun a b => funext fun d => d.elim0⟩

/-- One "all entries are finite" test: if the reduction by "and" of the entrywise comparisons is 1, every entry
    of the array is a real number. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x)
          (broadcastInDim s ![] hb (constant (F := Ideal) Cert.Pre_finite_inputs.S_ .f32 0x7F800000#32)))
        init hr hu ix0 = 1#1) : AllReal x := by
  intro i
  have hi := Host.reduce_andi_all _ init hr hu ix0 e i
  exact real_of_abs_lt_inf (x i) hi

theorem allReal_of_pre [hP : Cert.Pre_finite_inputs.Facts]
    (x0 : FVec Ideal Cert.Pre_finite_inputs.S16384x2048 .f32) (x1 : FVec Ideal Cert.Pre_finite_inputs.S2048x6144 .f32)
    (x2 : FVec Ideal Cert.Pre_finite_inputs.S6144 .f32) (x3 : FVec Ideal Cert.Pre_finite_inputs.S2048x2048 .f32)
    (x4 : FVec Ideal Cert.Pre_finite_inputs.S2048 .f32)
    (h : Cert.Pre_finite_inputs.fn (F := Ideal) x0 x1 x2 x3 x4 = fun _ => 1#1) :
    AllReal x0 ∧ AllReal x1 ∧ AllReal x2 ∧ AllReal x3 ∧ AllReal x4 := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨allReal_of_all x0 _ _ _ _ e0, allReal_of_all x1 _ _ _ _ e1, allReal_of_all x2 _ _ _ _ e2,
    allReal_of_all x3 _ _ _ _ e3, allReal_of_all x4 _ _ _ _ e4⟩

end Cert.Hand

end
-- ==== Proof.RefValue.lean ====
/-
  The reference program's result, read over the extended reals, is the layer of Spec.lean.

  The program forms the fused projection `x · W + b`, cuts it into query, key and value thirds, and attends with ONE key
  position per head: the softmax runs over a single score `s`. When `s` is a real number its maximum is `s`, the
  shifted score is `s - s = 0`, its exponential is `1`, the normalising sum is `0 + 1`, and the weight is `1 / 1 = 1`.
  The scores are real because the entries of `x`, `W` and `b` are: a score is a finite sum of products of entries of the
  projection, times a real constant. With every weight one, the attention output is the value third itself, and what is
  left is the output projection with its bias row.
-/
import proofs.«112032_j79568564126257_1_alg».proof.Proof.Gen.ReferenceIdeal.Read
import proofs.«112032_j79568564126257_1_alg».proof.Proof.Spec
import Idealize.ShloMosaic.PureOps.Ideal.Laws
import Idealize.ShloMosaic.PureOps.Reduce

noncomputable section

namespace Cert.Hand

open Idealize.ShloMosaic Idealize.ShloMosaic.ValueIdx Cert.ReferenceIdeal Cert.ReferenceIdeal.Read

/-! ## Real numbers inside the extended reals -/

/-- A product of two real numbers, taken in the extended reals, is a real number. -/
private theorem real_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- A sum of two real numbers, taken in the extended reals, is a real number. -/
private theorem real_add {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, taken in the extended reals, is a real number. -/
private theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- The scaling constant of the scores, 0x3DB504F3 read as a binary32 pattern, is a real number. -/
private theorem scale_real : ∃ r : ℝ, Ideal.ofBits .f32 0x3DB504F3#32 = (r : EReal) := by
  show ∃ r : ℝ, Ideal.ieee 8 23 (0x3DB504F3#32) = (r : EReal)
  unfold Ideal.ieee
  simp only []
  rw [if_neg (by decide), if_neg (by decide)]
  exact ⟨_, rfl⟩

/-- The pattern 0xFF800000 is −∞. -/
private theorem ninf_eq : Ideal.ofBits .f32 0xFF800000#32 = (⊥ : EReal) := by simp [Ideal.ofBits, Ideal.ieee]

/-- A fold over a one-element range is one step. -/
private theorem fold_fin_one {α : Type} (op : α → α → α) [Std.Commutative op] [Std.Associative op] (b : α) (n : Nat) (hn : n = 1)
    (f : Fin n → α) : (Finset.univ : Finset (Fin n)).fold op b f = op (f ⟨0, by omega⟩) b := by
  subst hn
  rw [Finset.univ_unique, Finset.fold_singleton]
  rfl

/-! ## The scores are real numbers -/

section
variable (x0 : (⟨S16384x2048, .f32⟩ : BufTy).Contents (Elt Ideal)) (x1 : (⟨S2048x6144, .f32⟩ : BufTy).Contents (Elt Ideal))
  (x2 : (⟨S6144, .f32⟩ : BufTy).Contents (Elt Ideal))

/-- Every entry of the fused projection `x · W + b` is a real number when the entries of `x`, `W`, `b` are. -/
theorem ref_qkv_real (h0 : AllReal x0) (h1 : AllReal x1) (h2 : AllReal x2) (i : S16384x6144.Idx) :
    ∃ r : ℝ, val_main_v3 (F := Ideal) x0 x1 x2 i = (r : EReal) := by
  rw [val_main_v3_apply, val_main_v0_apply, val_main_v2_apply, val_main_v1_apply, Ideal.addf_def]
  exact real_add (real_sum _ _ fun k _ => real_mul (h0 _) (h1 _)) (h2 _)

/-- Every score, the scaled inner product of a query row and a key row, is a real number. -/
theorem ref_score_real (h0 : AllReal x0) (h1 : AllReal x1) (h2 : AllReal x2) (i : S16384x16x1x1.Idx) :
    ∃ r : ℝ, val_main_v12 (F := Ideal) x0 x1 x2 i = (r : EReal) := by
  rw [val_main_v12_apply, val_main_v10_apply, val_main_v11_apply, val_main_cst_apply, Ideal.mulf_def, Ideal.ofBits_def]
  refine real_mul (real_sum _ _ fun k _ => real_mul ?_ ?_) scale_real
  · rw [val_main_v7_apply, val_main_v4_apply]
    exact ref_qkv_real x0 x1 x2 h0 h1 h2 _
  · rw [val_main_v8_apply, val_main_v5_apply]
    exact ref_qkv_real x0 x1 x2 h0 h1 h2 _

end

/-! ## The softmax over one key position has weight one -/

/-- The extent-one last coordinate put back into the index it was dropped from gives that index. -/
theorem ref_lift_idx (h : S16384x16x1x1.Reduces [3] S16384x16x1) (i : S16384x16x1x1.Idx) (k : Fin (S16384x16x1x1.size 3)) :
    h.lift (idx_main_v16 i) k = i := by
  funext c
  apply Fin.ext
  fin_cases c
  · rfl
  · rfl
  · show 0 = (i 2).val
    have : (i 2).val < 1 := (i 2).isLt
    omega
  · show k.val = (i 3).val
    have : (i 3).val < 1 := (i 3).isLt
    have : k.val < 1 := k.isLt
    omega

section
variable (x0 : (⟨S16384x2048, .f32⟩ : BufTy).Contents (Elt Ideal)) (x1 : (⟨S2048x6144, .f32⟩ : BufTy).Contents (Elt Ideal))
  (x2 : (⟨S6144, .f32⟩ : BufTy).Contents (Elt Ideal))

/-- The running maximum over the single key position, started from −∞ and joined with −∞ once more, is the score. -/
theorem ref_rowmax_eq (i : S16384x16x1x1.Idx) :
    val_main_v16 (F := Ideal) x0 x1 x2 i = val_main_v12 (F := Ideal) x0 x1 x2 i := by
  rw [val_main_v16_apply, val_main_v15_apply, val_main_v14_apply, val_main_cst_1_apply]
  unfold val_main_v13
  have h : S16384x16x1x1.Reduces [3] S16384x16x1 := by decide
  rw [Host.reduce_eq_fold_single FloatOps.maximumf _ _ Facts₀.reducesTo_S16384x16x1x1_S16384x16x1_d3 h Facts₀.h_S_]
  rw [fold_fin_one _ _ (S16384x16x1x1.size 3) rfl]
  rw [Function.comp_apply, ref_lift_idx, val_main_cst_0_apply]
  simp only [Ideal.maximumf_def, Ideal.ofBits_def, ninf_eq]
  rw [max_bot_right, max_bot_left]

/-- The exponential of a real score minus itself is one. -/
theorem ref_expdiff_one (h0 : AllReal x0) (h1 : AllReal x1) (h2 : AllReal x2) (i : S16384x16x1x1.Idx) :
    val_main_v18 (F := Ideal) x0 x1 x2 i = 1 := by
  obtain ⟨s, hs⟩ := ref_score_real x0 x1 x2 h0 h1 h2 i
  rw [val_main_v18_apply, val_main_v17_apply, ref_rowmax_eq, hs, Ideal.subf_def, Ideal.hostUnary_exp_def]
  rw [← EReal.coe_sub, sub_self, Ideal.exp_coe, Real.exp_zero, EReal.coe_one]

/-- Each softmax weight is one: the only term of the normalising sum is the numerator. -/
theorem ref_weight_one (h0 : AllReal x0) (h1 : AllReal x1) (h2 : AllReal x2) (i : S16384x16x1x1.Idx) :
    val_main_v21 (F := Ideal) x0 x1 x2 i = 1 := by
  rw [val_main_v21_apply, val_main_v20_apply, val_main_v19_apply, val_main_cst_2_apply, Fin.sum_univ_one]
  rw [ref_expdiff_one x0 x1 x2 h0 h1 h2, ref_expdiff_one x0 x1 x2 h0 h1 h2]
  rw [Ideal.hostDivf_def, Ideal.ofBits_def, Ideal.ofBits_zero_f32, zero_add]
  have e : (1 : EReal) = ((1 : ℝ) : EReal) := EReal.coe_one.symm
  rw [e, Ideal.div_coe one_ne_zero, ← EReal.coe_mul]
  norm_num

end

/-! ## The attention output is the value projection -/

/-- Splitting column `j` of a row into (head, position), and joining them again inside the value third of the fused
    projection, lands on column `4096 + j` of the same row. -/
theorem ref_value_index (r : Fin 16384) (j : Fin 2048) :
    idx_main_v6 (idx_main_v9 (ridx_main_v22 (idx_main_v23 (ix2 r j)) 0)) = ix2 r (vcol j) := by
  funext a
  apply Fin.ext
  have hr : r.val < 16384 := r.isLt
  have hj : j.val < 2048 := j.isLt
  match a with
  | ⟨0, _⟩ =>
    show ((((r.val * 2048 + j.val) / 2048 * 16 + (r.val * 2048 + j.val) / 128 % 16) * 1 + 0) * 128
      + (r.val * 2048 + j.val) % 128) / 2048 = r.val
    omega
  | ⟨1, _⟩ =>
    show 4096 + ((((r.val * 2048 + j.val) / 2048 * 16 + (r.val * 2048 + j.val) / 128 % 16) * 1 + 0) * 128
      + (r.val * 2048 + j.val) % 128) % 2048 = 4096 + j.val
    omega

section
variable (x0 : (⟨S16384x2048, .f32⟩ : BufTy).Contents (Elt Ideal)) (x1 : (⟨S2048x6144, .f32⟩ : BufTy).Contents (Elt Ideal))
  (x2 : (⟨S6144, .f32⟩ : BufTy).Contents (Elt Ideal))

/-- With every weight one, the attention output at `(r, j)` is entry `(r, 4096 + j)` of the fused projection. -/
theorem ref_attn_eq (h0 : AllReal x0) (h1 : AllReal x1) (h2 : AllReal x2) (r : Fin 16384) (j : Fin 2048) :
    val_main_v23 (F := Ideal) x0 x1 x2 (ix2 r j) = val_main_v3 (F := Ideal) x0 x1 x2 (ix2 r (vcol j)) := by
  rw [val_main_v23_apply, val_main_v22_apply, Fin.sum_univ_one, ref_weight_one x0 x1 x2 h0 h1 h2, one_mul,
    val_main_v9_apply, val_main_v6_apply, ref_value_index]

/-- Entry `(r, 4096 + j)` of the fused projection is entry `(r, j)` of the value projection. -/
theorem ref_value_eq (r : Fin 16384) (j : Fin 2048) :
    val_main_v3 (F := Ideal) x0 x1 x2 (ix2 r (vcol j)) = valueProj x0 x1 x2 r j := by
  rw [val_main_v3_apply, val_main_v0_apply, val_main_v2_apply, val_main_v1_apply, Ideal.addf_def]
  have e0 : ∀ k : Fin 2048, lidx_main_v0 (ix2 r (vcol j)) k = ix2 r k := fun k =>
    funext fun a => Fin.ext (by match a with | ⟨0, _⟩ => rfl | ⟨1, _⟩ => rfl)
  have e1 : ∀ k : Fin 2048, ridx_main_v0 (ix2 r (vcol j)) k = ix2 k (vcol j) := fun k =>
    funext fun a => Fin.ext (by match a with | ⟨0, _⟩ => rfl | ⟨1, _⟩ => rfl)
  have e2 : idx_main_v1 (idx_main_v2 (ix2 r (vcol j))) = ix1 (vcol j) :=
    funext fun a => Fin.ext (by match a with | ⟨0, _⟩ => rfl)
  simp only [e0, e1, e2]
  rfl

end

/-! ## The whole layer -/

/-- The reference's result is the value projection through the output projection, entry by entry: the sum over `j` is
    rewritten term by term with the two lemmas above, and the bias row is read at column `n`. -/
theorem reference_eq
    (x0 : (⟨S16384x2048, .f32⟩ : BufTy).Contents (Elt Ideal)) (x1 : (⟨S2048x6144, .f32⟩ : BufTy).Contents (Elt Ideal))
    (x2 : (⟨S6144, .f32⟩ : BufTy).Contents (Elt Ideal)) (x3 : (⟨S2048x2048, .f32⟩ : BufTy).Contents (Elt Ideal))
    (x4 : (⟨S2048, .f32⟩ : BufTy).Contents (Elt Ideal))
    (h0 : AllReal x0) (h1 : AllReal x1) (h2 : AllReal x2) :
    val_main_v27 (F := Ideal) x0 x1 x2 x3 x4 = layerOut x0 x1 x2 x3 x4 := by
  funext i
  obtain ⟨r, n, rfl⟩ : ∃ (r : Fin 16384) (n : Fin 2048), i = ix2 r n := ⟨i 0, i 1, eq_ix2 i⟩
  rw [val_main_v27_apply, val_main_v24_apply, val_main_v26_apply, val_main_v25_apply, Ideal.addf_def]
  have e0 : ∀ k : Fin 2048, lidx_main_v24 (ix2 r n) k = ix2 r k := fun k =>
    funext fun a => Fin.ext (by match a with | ⟨0, _⟩ => rfl | ⟨1, _⟩ => rfl)
  have e1 : ∀ k : Fin 2048, ridx_main_v24 (ix2 r n) k = ix2 k n := fun k =>
    funext fun a => Fin.ext (by match a with | ⟨0, _⟩ => rfl | ⟨1, _⟩ => rfl)
  have e2 : idx_main_v25 (idx_main_v26 (ix2 r n)) = ix1 n :=
    funext fun a => Fin.ext (by match a with | ⟨0, _⟩ => rfl)
  simp only [e0, e1, e2, ref_attn_eq x0 x1 x2 h0 h1 h2, ref_value_eq]
  rfl

end Cert.Hand

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KernelBody.lean ====
/-
  The kernel body's one store, read at an entry.

  At a grid point the body holds a [256, 2048] block of rows of `x`, the whole [2048, 2048] value weights and output
  weights, and the two bias rows. It stores `((xb · W_v) + b_v) · W_proj + b_proj`: two matrix products into zero
  accumulators, each followed by a bias row broadcast down the block's rows. Changes of float format are the
  identity on the extended reals, so entry (p, q) of the stored block is

      (∑ j, ((∑ k, xb[p, k] · W_v[k, j]) + b_v[0, j]) · W_proj[j, q]) + b_proj[0, q].
-/
import proofs.«112032_j79568564126257_1_alg».proof.Proof.Gen.KernelIdeal.Skeleton
import proofs.«112032_j79568564126257_1_alg».proof.Proof.LibKeepdims
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-! ## The block product's operand indices: rows of the left operand, columns of the right -/

theorem lhs_blk_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_blk_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_blk_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_blk_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- A [256, 2048] block times a [2048, 2048] matrix into a zero accumulator: entry (p, q) is the sum over the shared
    axis of row p's entries times column q's. -/
theorem blockMatmul_apply (a : FVec Ideal S256x2048 .bf16) (b : FVec Ideal S2048x2048 .bf16) (p : Fin 256) (q : Fin 2048) :
    matmul dot_S256x2048_S2048x2048_S256x2048_1_0_0_1_n_n none a b (constant S256x2048 .f32 0x00000000#32) (ix2 p q)
      = ∑ k : Fin 2048, a (ix2 p k) * b (ix2 k q) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q) ((contrEquiv1 dot_S256x2048_S2048x2048_S256x2048_1_0_0_1_n_n 2048 rfl rfl).symm k) = ix2 p k := funext fun ax => Fin.ext (by
    match ax with
    | ⟨0, _⟩ => exact lhs_blk_0 _ _
    | ⟨1, _⟩ => exact (lhs_blk_1 _ _).trans hk)
  have er : dot_S256x2048_S2048x2048_S256x2048_1_0_0_1_n_n.rhsIdx (ix2 p q) ((contrEquiv1 dot_S256x2048_S2048x2048_S256x2048_1_0_0_1_n_n 2048 rfl rfl).symm k) = ix2 k q := funext fun ax => Fin.ext (by
    match ax with
    | ⟨0, _⟩ => exact (rhs_blk_0 _ _).trans hk
    | ⟨1, _⟩ => exact rhs_blk_1 _ _)
  rw [el, er]

/-! ## The stored block at an entry -/

/-- Entry (p, q) of what the body stores, from its five loaded blocks. -/
theorem stored_apply (xb : Vec Ideal S256x2048 .f32) (wv : Vec Ideal S2048x2048 .bf16) (bv : Vec Ideal S1x2048 .f32)
    (wp : Vec Ideal S2048x2048 .bf16) (bp : Vec Ideal S1x2048 .f32) (p : Fin 256) (q : Fin 2048) :
    k0_pay1 xb wv bv wp bp (ix2 p q)
      = (∑ j : Fin 2048, ((∑ k : Fin 2048, xb (ix2 p k) * wv (ix2 k j)) + bv (ix2 (0 : Fin 1) j)) * wp (ix2 j q))
        + bp (ix2 (0 : Fin 1) q) := by
  unfold k0_pay1
  rw [addf_apply, blockMatmul_apply, Cert.LibKeepdims.row_broadcast_apply]
  refine congrArg (· + bp (ix2 (0 : Fin 1) q)) (Finset.sum_congr rfl fun j _ => ?_)
  rw [truncf_apply, addf_apply, blockMatmul_apply, Cert.LibKeepdims.row_broadcast_apply, shapeCast_self, shapeCast_self]
  refine congrArg (fun s => (s + bv (ix2 (0 : Fin 1) j)) * wp (ix2 j q)) (Finset.sum_congr rfl fun k _ => ?_)
  rw [truncf_apply]

end Cert.KernelIdeal.Hand

end
-- ==== Proof.KernelValue.lean ====
/-
  The kernel's result array as one function of the argument arrays.

  The grid has 64 points; point t stages rows 256·t … 256·t + 255 of `x`, the whole value weights (columns
  4096 … 6143 of the fused projection, sliced off before the launch), their bias row, the whole output weights and
  their bias row, and writes rows 256·t … 256·t + 255 of the result. Row r of the result therefore depends on row r of
  `x` only, and the 64 row blocks tile the result: entry (r, n) is

      (∑ j, ((∑ k, x[r, k] · w_qkv[k, 4096 + j]) + b_qkv[4096 + j]) · w_proj[j, n]) + b_proj[n],

  the specification's `layerOut`.
-/
import proofs.«112032_j79568564126257_1_alg».proof.Proof.Gen.KernelIdeal.Value
import proofs.«112032_j79568564126257_1_alg».proof.Proof.KernelBody
import proofs.«112032_j79568564126257_1_alg».proof.Proof.Spec
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)
open Cert.Hand (vcol valueProj layerOut)

variable (m : (ℓ : Loc nD τ sig) → Buf (Elt Ideal) ℓ) (ρ : Dev nD → PrngReg)

/-! ## The arrays the region stages, from the arguments -/

/-- The value weights the region stages: columns 4096 … 6143 of the fused projection. -/
theorem staged_wv (c : Dev nD) : (V m c main_v1 : S2048x2048.Idx → EReal)
    = truncf (F := Ideal) .bf16 (extractStridedSlice S2048x2048 ![0, 4096] (m ((c : Thread nD τ).loc main_arg1)) slices_S2048x6144_S2048x2048_0_4096) bitsLt_bf16_f32 := by
  dsimp only [Gen.V, Gen.hostOps0]; after_results <;> rfl

/-- The value bias row: entries 4096 … 6143 of the fused bias, as one row. -/
theorem staged_bv (c : Dev nD) : (V m c main_v3 : S1x2048.Idx → EReal)
    = shapeCast S1x2048 (extractStridedSlice S2048 ![4096] (m ((c : Thread nD τ).loc main_arg2)) slices_S6144_S2048_4096) shapeCasts_S2048_S1x2048 := by
  dsimp only [Gen.V, Gen.hostOps0]; after_results <;> rfl

/-- The output weights, in another float format: the same extended reals. -/
theorem staged_wp (c : Dev nD) : (V m c main_v4 : S2048x2048.Idx → EReal)
    = truncf (F := Ideal) .bf16 (m ((c : Thread nD τ).loc main_arg3)) bitsLt_bf16_f32 := by
  dsimp only [Gen.V, Gen.hostOps0]; after_results <;> rfl

/-- The output bias as one row. -/
theorem staged_bp (c : Dev nD) : (V m c main_v5 : S1x2048.Idx → EReal)
    = shapeCast S1x2048 (m ((c : Thread nD τ).loc main_arg4)) shapeCasts_S2048_S1x2048 := by
  dsimp only [Gen.V, Gen.hostOps0]; after_results <;> rfl

theorem staged_wv_apply (c : Dev nD) (k j : Fin 2048) :
    (V m c main_v1 : S2048x2048.Idx → EReal) (ix2 k j) = m ((c : Thread nD τ).loc main_arg1) (ix2 k (vcol j)) := by
  rw [staged_wv, truncf_apply]
  exact extractStridedSlice_apply ![0, 4096] _ slices_S2048x6144_S2048x2048_0_4096 (ix2 k j) (ix2 k (vcol j)) (fun a => match a with
    | ⟨0, _⟩ => by show k.val = 0 + k.val; omega
    | ⟨1, _⟩ => by show 4096 + j.val = 4096 + j.val; omega)

theorem staged_bv_apply (c : Dev nD) (j : Fin 2048) :
    (V m c main_v3 : S1x2048.Idx → EReal) (ix2 (0 : Fin 1) j) = m ((c : Thread nD τ).loc main_arg2) (ix1 (vcol j)) := by
  rw [staged_bv]
  refine (shapeCast_apply _ shapeCasts_S2048_S1x2048 (ix2 (0 : Fin 1) j) (ix1 j) ?_).trans ?_
  · rw [Shape.rowMajor_val_one, Shape.rowMajor_val_two]; show j.val = 0 * 2048 + j.val; omega
  · exact extractStridedSlice_apply ![4096] _ slices_S6144_S2048_4096 (ix1 j) (ix1 (vcol j)) (fun a => match a with
      | ⟨0, _⟩ => by show 4096 + j.val = 4096 + j.val; omega)

theorem staged_wp_apply (c : Dev nD) (j q : Fin 2048) :
    (V m c main_v4 : S2048x2048.Idx → EReal) (ix2 j q) = m ((c : Thread nD τ).loc main_arg3) (ix2 j q) := by
  rw [staged_wp, truncf_apply]

theorem staged_bp_apply (c : Dev nD) (q : Fin 2048) :
    (V m c main_v5 : S1x2048.Idx → EReal) (ix2 (0 : Fin 1) q) = m ((c : Thread nD τ).loc main_arg4) (ix1 q) := by
  rw [staged_bp]
  refine shapeCast_apply _ shapeCasts_S2048_S1x2048 (ix2 (0 : Fin 1) q) (ix1 q) ?_
  rw [Shape.rowMajor_val_one, Shape.rowMajor_val_two]; show q.val = 0 * 2048 + q.val; omega

/-! ## The windows' blocks -/

theorem hz : (![0, 0] : Fin 2 → Nat) = fun _ => 0 := funext fun a => by fin_cases a <;> rfl

/-- Block indices over the grid: the block of `x` and the result's block move with the point along the rows; the
    weights and bias rows are one whole block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of `x` at point t, at (p, k), is `x` at row 256·t + p. -/
theorem xblk_apply (c : Dev nD) (t : Fin cfg0.N) (y : S256x2048.Idx) (i : S16384x2048.Idx)
    (h0 : (i 0).val = 256 * t.val + (y 0).val) (h1 : (i 1).val = (y 1).val) :
    (iblk m c 0 t : Vec Ideal S256x2048 .f32) y = (V m c main_arg0 : S16384x2048.Idx → EReal) i := by
  obtain ⟨e00, e01, -⟩ := idx_facts t
  unfold iblk
  rw [View.read_apply]
  show (V m c main_arg0 : S16384x2048.Idx → EReal) _ = V m c main_arg0 _
  congr 1
  funext a; apply Fin.ext
  match a with
  | ⟨0, _⟩ => show win0_0.index t 0 * 256 + 1 * (y 0).val = (i 0).val; rw [e00, h0]; omega
  | ⟨1, _⟩ => show win0_0.index t 1 * 2048 + 1 * (y 1).val = (i 1).val; rw [e01, h1]; omega

/-- The value weights' one block is the whole array. -/
theorem wvblk_apply (c : Dev nD) (t : Fin cfg0.N) (y : S2048x2048.Idx) :
    (iblk m c 1 t : Vec Ideal S2048x2048 .bf16) y = (V m c main_v1 : S2048x2048.Idx → EReal) y := by
  obtain ⟨-, -, e10, e11, -⟩ := idx_facts t
  unfold iblk
  rw [View.read_apply]
  show (V m c main_v1 : S2048x2048.Idx → EReal) _ = V m c main_v1 _
  congr 1
  funext a; apply Fin.ext
  match a with
  | ⟨0, _⟩ => show win0_1.index t 0 * 2048 + 1 * (y 0).val = (y 0).val; rw [e10]; omega
  | ⟨1, _⟩ => show win0_1.index t 1 * 2048 + 1 * (y 1).val = (y 1).val; rw [e11]; omega

theorem bvblk_apply (c : Dev nD) (t : Fin cfg0.N) (y : S1x2048.Idx) :
    (iblk m c 2 t : Vec Ideal S1x2048 .f32) y = (V m c main_v3 : S1x2048.Idx → EReal) y := by
  obtain ⟨-, -, -, -, e20, e21, -⟩ := idx_facts t
  unfold iblk
  rw [View.read_apply]
  show (V m c main_v3 : S1x2048.Idx → EReal) _ = V m c main_v3 _
  congr 1
  funext a; apply Fin.ext
  match a with
  | ⟨0, _⟩ => show win0_2.index t 0 * 1 + 1 * (y 0).val = (y 0).val; rw [e20]; omega
  | ⟨1, _⟩ => show win0_2.index t 1 * 2048 + 1 * (y 1).val = (y 1).val; rw [e21]; omega

theorem wpblk_apply (c : Dev nD) (t : Fin cfg0.N) (y : S2048x2048.Idx) :
    (iblk m c 3 t : Vec Ideal S2048x2048 .bf16) y = (V m c main_v4 : S2048x2048.Idx → EReal) y := by
  obtain ⟨-, -, -, -, -, -, e30, e31, -⟩ := idx_facts t
  unfold iblk
  rw [View.read_apply]
  show (V m c main_v4 : S2048x2048.Idx → EReal) _ = V m c main_v4 _
  congr 1
  funext a; apply Fin.ext
  match a with
  | ⟨0, _⟩ => show win0_3.index t 0 * 2048 + 1 * (y 0).val = (y 0).val; rw [e30]; omega
  | ⟨1, _⟩ => show win0_3.index t 1 * 2048 + 1 * (y 1).val = (y 1).val; rw [e31]; omega

theorem bpblk_apply (c : Dev nD) (t : Fin cfg0.N) (y : S1x2048.Idx) :
    (iblk m c 4 t : Vec Ideal S1x2048 .f32) y = (V m c main_v5 : S1x2048.Idx → EReal) y := by
  obtain ⟨-, -, -, -, -, -, -, -, e40, e41, -⟩ := idx_facts t
  unfold iblk
  rw [View.read_apply]
  show (V m c main_v5 : S1x2048.Idx → EReal) _ = V m c main_v5 _
  congr 1
  funext a; apply Fin.ext
  match a with
  | ⟨0, _⟩ => show win0_4.index t 0 * 1 + 1 * (y 0).val = (y 0).val; rw [e40]; omega
  | ⟨1, _⟩ => show win0_4.index t 1 * 2048 + 1 * (y 1).val = (y 1).val; rw [e41]; omega

/-! ## What a point writes back -/

/-- The result as the region's own arrays give it: `layerOut` of the arguments. -/
abbrev result (c : Dev nD) : S16384x2048.Idx → EReal :=
  layerOut (m ((c : Thread nD τ).loc main_arg0)) (m ((c : Thread nD τ).loc main_arg1)) (m ((c : Thread nD τ).loc main_arg2))
    (m ((c : Thread nD τ).loc main_arg3)) (m ((c : Thread nD τ).loc main_arg4))

/-- Entry (p, q) of the block stored at point t is entry (256·t + p, q) of `layerOut`. -/
theorem stored_eq (c : Dev nD) (t : Fin cfg0.N) (y : S256x2048.Idx) (i : S16384x2048.Idx)
    (h0 : (i 0).val = 256 * t.val + (y 0).val) (h1 : (i 1).val = (y 1).val) :
    k0_pay1 (iblk m c 0 t) (iblk m c 1 t) (iblk m c 2 t) (iblk m c 3 t) (iblk m c 4 t) y = result m c i := by
  obtain ⟨p, q, rfl⟩ : ∃ (p : Fin 256) (q : Fin 2048), y = ix2 p q := ⟨y 0, y 1, eq_ix2 y⟩
  have hi1 : i 1 = q := Fin.ext h1
  rw [stored_apply]
  unfold result layerOut
  rw [hi1, bpblk_apply, staged_bp_apply]
  refine congrArg (· + m ((c : Thread nD τ).loc main_arg4) (ix1 q)) (Finset.sum_congr rfl fun j _ => ?_)
  rw [wpblk_apply, staged_wp_apply, bvblk_apply, staged_bv_apply]
  unfold valueProj
  refine congrArg (fun s => (s + m ((c : Thread nD τ).loc main_arg2) (ix1 (vcol j))) * m ((c : Thread nD τ).loc main_arg3) (ix2 j q))
    (Finset.sum_congr rfl fun k _ => ?_)
  rw [wvblk_apply, staged_wv_apply, xblk_apply m c t (ix2 p k) (ix2 (i 0) k) h0 rfl, V_main_arg0]

/-- WHAT POINT t WRITES BACK is block t of `layerOut` of the arguments. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S256x2048) hz, View.ld_unit_zero (S := S2048x2048) hz, View.ld_unit_zero (S := S1x2048) hz]
  obtain ⟨-, -, -, -, -, -, -, -, -, -, e50, e51⟩ := idx_facts t
  funext y
  show k0_pay1 (iblk m c 0 t) (iblk m c 1 t) (iblk m c 2 t) (iblk m c 3 t) (iblk m c 4 t) y = result m c (((cfg0.win 5).blk t).view.emb y)
  refine stored_eq m c t y _ ?_ ?_
  · show win0_5.index t 0 * 256 + 1 * (y 0).val = 256 * t.val + (y 0).val; rw [e50]; omega
  · show win0_5.index t 1 * 2048 + 1 * (y 1).val = (y 1).val; rw [e51]; omega

/-! ## The cover and the run -/

/-- An index of the result is in point t's block iff each coordinate is in the block's range on its axis. -/
theorem mem_blk (t : Fin cfg0.N) (i : S16384x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v6).slice (win0_5.rect t)).set ↔ _
  rw [View.set_slice_whole, Rect.mem_set_unit]
  exact Iff.rfl

/-- Every block of rows is some point's: row block b is point b's. -/
theorem idx_onto : ∀ b : Fin 64, ∃ t : Fin cfg0.N, win0_5.index t = ![b.val, 0] :=
  (by decide +kernel : ∀ b : Fin 64, ∃ t : Fin grid0.N, win0_5.index t = ![b.val, 0])

/-- THE ARRAY after the run: the 64 row blocks tile it, so it is `layerOut` of the arguments everywhere. -/
theorem final (c : Dev nD) : (dats m 0 c).arrAt 5 cfg0.N = result m c :=
  (dats m 0 c).arrAt_eq_of_cover 5 (result m c) (fun t _ => flushed_eq m c t) fun i => by
    have hi0 : (i 0).val < 16384 := (i 0).isLt
    have hi1 : (i 1).val < 2048 := (i 1).isLt
    obtain ⟨t, ht⟩ := idx_onto ⟨(i 0).val / 256, by omega⟩
    have q0 : win0_5.index t (0 : Fin 2) = (i 0).val / 256 := congrFun ht 0
    have q1 : win0_5.index t (1 : Fin 2) = 0 := congrFun ht 1
    refine ⟨t, flush0_5 t, ?_⟩
    rw [mem_blk]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 2048 ≤ (i 1).val ∧ (i 1).val < win0_5.index t (1 : Fin 2) * 2048 + 2048; omega

/-- The run, read: the result array at `layerOut` of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Hand

end
-- ==== Proof.lean ====
/-
  The kernel is a fused pair of projections, `(x · W_v + b_v) · W_proj + b_proj`, where `W_v`, `b_v` are the value third
  of the fused query/key/value projection; the reference is single-position attention: it forms all three thirds,
  scores each head's one query against its one key, takes a softmax over that single score, weights the head's one
  value row by it and applies the output projection.

  Over the extended reals a softmax over one score `s` is `exp (s - s) / exp (s - s)`, which is 1 exactly when `s` is a
  real number (at an infinite score `s - s` is not 0). The scores are finite sums of products of entries of `x`,
  `w_qkv`, `b_qkv`, so they are real as soon as those inputs are: this is where the precondition (every input entry
  finite) is used. With every attention weight 1 the attention output is the value third itself, and both programs
  compute `layerOut` of Proof/Spec.lean.

  The pieces: Proof/FiniteInputs.lean reads the precondition as "every entry is a real number"; Proof/RefValue.lean
  shows the reference's result term is `layerOut` for real inputs; Proof/KernelBody.lean reads the kernel body's
  stored block at an entry and Proof/KernelValue.lean lays the 64 row blocks into the result array. The frames of the
  two kernel programs are the generated ones; the reference's frame is its run with the result dropped; the
  idealization rewrote nothing, so there is nothing to preserve.
-/
import proofs.«112032_j79568564126257_1_alg».proof.Defs
import proofs.«112032_j79568564126257_1_alg».proof.Proof.Gen.Kernel
import proofs.«112032_j79568564126257_1_alg».proof.Proof.Gen.Kernel.Skeleton
import proofs.«112032_j79568564126257_1_alg».proof.Proof.Gen.Kernel.Launch
import proofs.«112032_j79568564126257_1_alg».proof.Proof.Gen.Kernel.Points
import proofs.«112032_j79568564126257_1_alg».proof.Proof.Gen.Kernel.Frame
import proofs.«112032_j79568564126257_1_alg».proof.Proof.Gen.KernelIdeal
import proofs.«112032_j79568564126257_1_alg».proof.Proof.Gen.KernelIdeal.Skeleton
import proofs.«112032_j79568564126257_1_alg».proof.Proof.Gen.KernelIdeal.Launch
import proofs.«112032_j79568564126257_1_alg».proof.Proof.Gen.KernelIdeal.Points
import proofs.«112032_j79568564126257_1_alg».proof.Proof.Gen.KernelIdeal.Frame
import proofs.«112032_j79568564126257_1_alg».proof.Proof.Gen.ReferenceIdeal
import proofs.«112032_j79568564126257_1_alg».proof.Proof.Gen.Pre_finite_inputs
import proofs.«112032_j79568564126257_1_alg».proof.Proof.Gen.KernelIdeal.Value
import proofs.«112032_j79568564126257_1_alg».proof.Proof.Gen.ReferenceIdeal.Run
import proofs.«112032_j79568564126257_1_alg».proof.Proof.Gen.ReferenceIdeal.Read
import proofs.«112032_j79568564126257_1_alg».proof.Proof.FiniteInputs
import proofs.«112032_j79568564126257_1_alg».proof.Proof.RefValue
import proofs.«112032_j79568564126257_1_alg».proof.Proof.KernelValue
import Idealize.ShloMosaic.Adequacy
import Idealize.ShloMosaic.Init

noncomputable section

namespace Cert.Proof

open Idealize.ShloMosaic Idealize.ShloMosaic.TcCoe Idealize.SL.Sem

/-- The reference terminates with its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, all finite, the idealized kernel ends with its result array at
    `layerOut` of the arguments (the 64 row blocks of the fused projections), and the idealized reference at its
    composed term of the same arguments, which is `layerOut` too because every attention weight is 1. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, -, -⟩ := Cert.Hand.allReal_of_pre _ _ _ _ _ (hpre c)
  rw [Cert.ReferenceIdeal.Read.val_main_v27_eq, (hagree c).1, (hagree c).2.1, (hagree c).2.2.1, (hagree c).2.2.2.1,
    (hagree c).2.2.2.2]
  exact Cert.Hand.reference_eq _ _ _ _ _ r0 r1 r2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
